-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x128 : Shape := ⟨2, ![512, 128]⟩
abbrev S128x2048 : Shape := ⟨2, ![128, 2048]⟩
abbrev S1x128 : Shape := ⟨2, ![1, 128]⟩

abbrev nBuf : Space → Nat
  | .hbm => 31
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x2048, .bf16⟩
  | .hbm, ⟨12, _⟩ => ⟨S8192x2048, .bf16⟩
  | .hbm, ⟨13, _⟩ => ⟨S2048x4096, .bf16⟩
  | .hbm, ⟨14, _⟩ => ⟨S2048x2048, .bf16⟩
  | .hbm, ⟨15, _⟩ => ⟨S2048x2048, .bf16⟩
  | .hbm, ⟨16, _⟩ => ⟨S2048x4096, .bf16⟩
  | .hbm, ⟨17, _⟩ => ⟨S2048x2048, .bf16⟩
  | .hbm, ⟨18, _⟩ => ⟨S2048x2048, .bf16⟩
  | .hbm, ⟨19, _⟩ => ⟨S2048x4096, .bf16⟩
  | .hbm, ⟨20, _⟩ => ⟨S2048x2048, .bf16⟩
  | .hbm, ⟨21, _⟩ => ⟨S2048x2048, .bf16⟩
  | .hbm, ⟨22, _⟩ => ⟨S2048x4096, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  slices_S2048x4096_S2048x2048_0_0 : S2048x4096.Slices ![0, 0] S2048x2048
  slices_S2048x4096_S2048x2048_0_2048 : S2048x4096.Slices ![0, 2048] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x2048_S128x2048_S512x128_1_1_0_0_n_n_wf : DotDims.WF S512x2048 S128x2048 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x2048.size a
  hwx0_2 : ∀ i : grid0.Coords, EltTy.bits .f32 = 32 ∨ (Rect.block (s := S8192x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .bf16 = 32 ∨ (Rect.block (s := S2048x2048) S128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S2048x2048.size a
  hwx0_4 : ∀ i : grid0.Coords, EltTy.bits .bf16 = 32 ∨ (Rect.block (s := S2048x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .bf16 = 32 ∨ (Rect.block (s := S2048x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .bf16 = 32 ∨ (Rect.block (s := S2048x2048) S128x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .bf16 = 32 ∨ (Rect.block (s := S2048x2048) S128x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .bf16 = 32 ∨ (Rect.block (s := S2048x2048) S128x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .bf16 = 32 ∨ (Rect.block (s := S2048x2048) S128x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .bf16 = 32 ∨ (Rect.block (s := S2048x2048) S128x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S8192x2048.size a
  hwx0_15 : ∀ i : grid0.Coords, EltTy.bits .f32 = 32 ∨ (Rect.block (s := S8192x2048) S512x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x128.size a ≤ S8192x2048.size a
  hwx0_16 : ∀ i : grid0.Coords, EltTy.bits .f32 = 32 ∨ (Rect.block (s := S8192x2048) S512x128.size (cc0_transform_16 i) (hinb0_16 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13) S128x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S512x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S512x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Spec.lean ====
/-
  The LSTM cell that both programs compute, as functions of the eleven argument arrays, index by index, on the
  extended reals.

  One gate's pre-activation at batch row `p` and hidden unit `q` is the inner product of the row `[x p, h p]` (the
  input row followed by the previous hidden row, 2048 + 2048 entries) with row `q` of the gate's weight matrix, plus
  the gate's bias at `q`.  The inner product is written as TWO sums of 2048 terms, the input half (weight columns
  `0 … 2047`) and the hidden half (weight columns `2048 … 4095`): a sum over 4096 terms is the sum of its two halves
  in any commutative monoid (`sum_halves`), so nothing here asks the entries to be finite.

  The new cell state is `σ(f) · c + σ(i) · tanh(g)` and the new hidden state `σ(o) · tanh(cell)`, with `σ` the logistic
  function `1 / (1 + e⁻ᵗ)` extended to `±∞` by its limits.
-/
import Idealize.ShloMosaic.PureOps.Ideal
import Idealize.ShloMosaic.Lib.ValueIdx
import Idealize.ShloMosaic.Lib.IdealHost

noncomputable section

namespace Cert.Lstm

open Idealize.ShloMosaic Idealize.ShloMosaic.ValueIdx

/-- `[batch, feature]` arrays: the input, the previous hidden state, the previous cell state and both results. -/
abbrev Batch : Shape := ⟨2, ![8192, 2048]⟩
/-- One gate's weight matrix: a row per hidden unit, the 2048 input columns then the 2048 hidden columns. -/
abbrev Weight : Shape := ⟨2, ![2048, 4096]⟩
/-- One gate's bias: an entry per hidden unit. -/
abbrev Bias : Shape := ⟨1, ![2048]⟩

/-- Weight column `k` of the input half. -/
abbrev inCol (k : Fin 2048) : Fin 4096 := ⟨k.val, by omega⟩
/-- Weight column `k` of the hidden half. -/
abbrev hidCol (k : Fin 2048) : Fin 4096 := ⟨2048 + k.val, by omega⟩

/-- A sum over the 4096 columns is the sum over the input half plus the sum over the hidden half. -/
theorem sum_halves {M : Type*} [AddCommMonoid M] (f : Fin 4096 → M) :
    ∑ k : Fin 4096, f k = ∑ k : Fin 2048, f (inCol k) + ∑ k : Fin 2048, f (hidCol k) := by
  exact Fin.sum_univ_add (a := 2048) (b := 2048) (f : Fin (2048 + 2048) → M)

/-- A gate's pre-activation at batch row `p`, hidden unit `q`. -/
def gate (x h : Batch.Idx → EReal) (W : Weight.Idx → EReal) (b : Bias.Idx → EReal) (p : Fin 8192) (q : Fin 2048) : EReal :=
  (∑ k : Fin 2048, x (ix2 p k) * W (ix2 q (inCol k)) + ∑ k : Fin 2048, h (ix2 p k) * W (ix2 q (hidCol k))) + b (ix1 q)

/-- The new cell state: forget gate times the old cell state plus input gate times the candidate. -/
def cellOut (x h c : Batch.Idx → EReal) (Wf : Weight.Idx → EReal) (bf : Bias.Idx → EReal) (Wi : Weight.Idx → EReal)
    (bi : Bias.Idx → EReal) (Wg : Weight.Idx → EReal) (bg : Bias.Idx → EReal) : Batch.Idx → EReal := fun j =>
  Ideal.logistic (gate x h Wf bf (j 0) (j 1)) * c j
    + Ideal.logistic (gate x h Wi bi (j 0) (j 1)) * Ideal.tanh (gate x h Wg bg (j 0) (j 1))

/-- The new hidden state: output gate times `tanh` of the new cell state. -/
def hidOut (x h c : Batch.Idx → EReal) (Wf : Weight.Idx → EReal) (bf : Bias.Idx → EReal) (Wi : Weight.Idx → EReal)
    (bi : Bias.Idx → EReal) (Wg : Weight.Idx → EReal) (bg : Bias.Idx → EReal) (Wo : Weight.Idx → EReal)
    (bo : Bias.Idx → EReal) : Batch.Idx → EReal := fun j =>
  Ideal.logistic (gate x h Wo bo (j 0) (j 1)) * Ideal.tanh (cellOut x h c Wf bf Wi bi Wg bg j)

end Cert.Lstm

end
-- ==== Proof.RefBridge.lean ====
/-
  The reference's two results, read index by index, are the LSTM cell's new cell state and new hidden state.
-/
import proofs.«170830_j49160195670661_1_alg».proof.Proof.Gen.ReferenceIdeal.Read
import proofs.«170830_j49160195670661_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Bridge

open Cert.ReferenceIdeal Cert.ReferenceIdeal.Gen Cert.ReferenceIdeal.Read Idealize.ShloMosaic Idealize.ShloMosaic.TcCoe Idealize.ShloMosaic.ValueIdx

/-! ### The stacked rows

The four gates' weight matrices are stacked along the rows and their biases along the one axis: gate number `g`
(forget, input, candidate, output) holds rows `2048 g` to `2048 g + 2047`. -/

/-- Row `q` of the forget gate in the stack. -/
abbrev rowF (q : Fin 2048) : Fin 8192 := ⟨q.val, by omega⟩
/-- Row `q` of the input gate in the stack. -/
abbrev rowI (q : Fin 2048) : Fin 8192 := ⟨2048 + q.val, by omega⟩
/-- Row `q` of the candidate gate in the stack. -/
abbrev rowG (q : Fin 2048) : Fin 8192 := ⟨4096 + q.val, by omega⟩
/-- Row `q` of the output gate in the stack. -/
abbrev rowO (q : Fin 2048) : Fin 8192 := ⟨6144 + q.val, by omega⟩

/-! ### The three concatenations at an index -/

/-- The joined `[input, hidden]` array at a column of the input half is the input. -/
theorem v0_in (x0 x1 : FVec Ideal S8192x2048 .f32) (p : Fin 8192) (k : Fin 2048) :
    val_main_v0 (F := Ideal) x0 x1 (ix2 p (Cert.Lstm.inCol k)) = x0 (ix2 p k) := by
  unfold val_main_v0
  exact concatenate_pair_apply_left 1 x0 x1 concatenates_S8192x2048_S8192x2048_S8192x4096_d1
    (ix2 p (Cert.Lstm.inCol k)) rfl (ix2 p k) (fun b => match b with
      | ⟨0, _⟩ => rfl
      | ⟨1, _⟩ => rfl)

/-- The joined `[input, hidden]` array at a column of the hidden half is the previous hidden state. -/
theorem v0_hid (x0 x1 : FVec Ideal S8192x2048 .f32) (p : Fin 8192) (k : Fin 2048) :
    val_main_v0 (F := Ideal) x0 x1 (ix2 p (Cert.Lstm.hidCol k)) = x1 (ix2 p k) := by
  unfold val_main_v0
  exact concatenate_pair_apply_right 1 x0 x1 concatenates_S8192x2048_S8192x2048_S8192x4096_d1
    (ix2 p (Cert.Lstm.hidCol k)) rfl rfl (ix2 p k) (fun b => match b with
      | ⟨0, _⟩ => fun _ => rfl
      | ⟨1, _⟩ => fun hne => absurd rfl hne)
    (Nat.add_comm _ _)

/-- The stacked weights at a row of the forget gate are that gate's weights. -/
theorem v1_rowF (x3 x5 x7 x9 : FVec Ideal S2048x4096 .f32) (q : Fin 2048) (c : Fin 4096) :
    val_main_v1 (F := Ideal) x3 x5 x7 x9 (ix2 (rowF q) c) = x3 (ix2 q c) := by
  unfold val_main_v1
  exact concatenate_apply_piece 0 [⟨S2048x4096, x3⟩, ⟨S2048x4096, x5⟩, ⟨S2048x4096, x7⟩, ⟨S2048x4096, x9⟩]
    concatenates_S2048x4096_S2048x4096_S2048x4096_S2048x4096_S8192x4096_d0 (ix2 (rowF q) c)
    0 (show (0 : Nat) < 4 by decide) S2048x4096 x3 rfl rfl 0 rfl (ix2 q c) (fun b => match b with
      | ⟨0, _⟩ => fun hne => absurd rfl hne
      | ⟨1, _⟩ => fun _ => rfl)
    (Nat.zero_add _)

/-- The stacked biases at an entry of the forget gate are that gate's biases. -/
theorem v2_rowF (x4 x6 x8 x10 : FVec Ideal S2048 .f32) (q : Fin 2048) :
    val_main_v2 (F := Ideal) x4 x6 x8 x10 (ix1 (rowF q)) = x4 (ix1 q) := by
  unfold val_main_v2
  exact concatenate_apply_piece 0 [⟨S2048, x4⟩, ⟨S2048, x6⟩, ⟨S2048, x8⟩, ⟨S2048, x10⟩]
    concatenates_S2048_S2048_S2048_S2048_S8192_d0 (ix1 (rowF q))
    0 (show (0 : Nat) < 4 by decide) S2048 x4 rfl rfl 0 rfl (ix1 q) (fun b => match b with
      | ⟨0, _⟩ => fun hne => absurd rfl hne)
    (Nat.zero_add _)

/-- The stacked weights at a row of the input gate are that gate's weights. -/
theorem v1_rowI (x3 x5 x7 x9 : FVec Ideal S2048x4096 .f32) (q : Fin 2048) (c : Fin 4096) :
    val_main_v1 (F := Ideal) x3 x5 x7 x9 (ix2 (rowI q) c) = x5 (ix2 q c) := by
  unfold val_main_v1
  exact concatenate_apply_piece 0 [⟨S2048x4096, x3⟩, ⟨S2048x4096, x5⟩, ⟨S2048x4096, x7⟩, ⟨S2048x4096, x9⟩]
    concatenates_S2048x4096_S2048x4096_S2048x4096_S2048x4096_S8192x4096_d0 (ix2 (rowI q) c)
    1 (show (1 : Nat) < 4 by decide) S2048x4096 x5 rfl rfl 2048 rfl (ix2 q c) (fun b => match b with
      | ⟨0, _⟩ => fun hne => absurd rfl hne
      | ⟨1, _⟩ => fun _ => rfl)
    rfl

/-- The stacked biases at an entry of the input gate are that gate's biases. -/
theorem v2_rowI (x4 x6 x8 x10 : FVec Ideal S2048 .f32) (q : Fin 2048) :
    val_main_v2 (F := Ideal) x4 x6 x8 x10 (ix1 (rowI q)) = x6 (ix1 q) := by
  unfold val_main_v2
  exact concatenate_apply_piece 0 [⟨S2048, x4⟩, ⟨S2048, x6⟩, ⟨S2048, x8⟩, ⟨S2048, x10⟩]
    concatenates_S2048_S2048_S2048_S2048_S8192_d0 (ix1 (rowI q))
    1 (show (1 : Nat) < 4 by decide) S2048 x6 rfl rfl 2048 rfl (ix1 q) (fun b => match b with
      | ⟨0, _⟩ => fun hne => absurd rfl hne)
    rfl

/-- The stacked weights at a row of the candidate gate are that gate's weights. -/
theorem v1_rowG (x3 x5 x7 x9 : FVec Ideal S2048x4096 .f32) (q : Fin 2048) (c : Fin 4096) :
    val_main_v1 (F := Ideal) x3 x5 x7 x9 (ix2 (rowG q) c) = x7 (ix2 q c) := by
  unfold val_main_v1
  exact concatenate_apply_piece 0 [⟨S2048x4096, x3⟩, ⟨S2048x4096, x5⟩, ⟨S2048x4096, x7⟩, ⟨S2048x4096, x9⟩]
    concatenates_S2048x4096_S2048x4096_S2048x4096_S2048x4096_S8192x4096_d0 (ix2 (rowG q) c)
    2 (show (2 : Nat) < 4 by decide) S2048x4096 x7 rfl rfl 4096 rfl (ix2 q c) (fun b => match b with
      | ⟨0, _⟩ => fun hne => absurd rfl hne
      | ⟨1, _⟩ => fun _ => rfl)
    rfl

/-- The stacked biases at an entry of the candidate gate are that gate's biases. -/
theorem v2_rowG (x4 x6 x8 x10 : FVec Ideal S2048 .f32) (q : Fin 2048) :
    val_main_v2 (F := Ideal) x4 x6 x8 x10 (ix1 (rowG q)) = x8 (ix1 q) := by
  unfold val_main_v2
  exact concatenate_apply_piece 0 [⟨S2048, x4⟩, ⟨S2048, x6⟩, ⟨S2048, x8⟩, ⟨S2048, x10⟩]
    concatenates_S2048_S2048_S2048_S2048_S8192_d0 (ix1 (rowG q))
    2 (show (2 : Nat) < 4 by decide) S2048 x8 rfl rfl 4096 rfl (ix1 q) (fun b => match b with
      | ⟨0, _⟩ => fun hne => absurd rfl hne)
    rfl

/-- The stacked weights at a row of the output gate are that gate's weights. -/
theorem v1_rowO (x3 x5 x7 x9 : FVec Ideal S2048x4096 .f32) (q : Fin 2048) (c : Fin 4096) :
    val_main_v1 (F := Ideal) x3 x5 x7 x9 (ix2 (rowO q) c) = x9 (ix2 q c) := by
  unfold val_main_v1
  exact concatenate_apply_piece 0 [⟨S2048x4096, x3⟩, ⟨S2048x4096, x5⟩, ⟨S2048x4096, x7⟩, ⟨S2048x4096, x9⟩]
    concatenates_S2048x4096_S2048x4096_S2048x4096_S2048x4096_S8192x4096_d0 (ix2 (rowO q) c)
    3 (show (3 : Nat) < 4 by decide) S2048x4096 x9 rfl rfl 6144 rfl (ix2 q c) (fun b => match b with
      | ⟨0, _⟩ => fun hne => absurd rfl hne
      | ⟨1, _⟩ => fun _ => rfl)
    rfl

/-- The stacked biases at an entry of the output gate are that gate's biases. -/
theorem v2_rowO (x4 x6 x8 x10 : FVec Ideal S2048 .f32) (q : Fin 2048) :
    val_main_v2 (F := Ideal) x4 x6 x8 x10 (ix1 (rowO q)) = x10 (ix1 q) := by
  unfold val_main_v2
  exact concatenate_apply_piece 0 [⟨S2048, x4⟩, ⟨S2048, x6⟩, ⟨S2048, x8⟩, ⟨S2048, x10⟩]
    concatenates_S2048_S2048_S2048_S2048_S8192_d0 (ix1 (rowO q))
    3 (show (3 : Nat) < 4 by decide) S2048 x10 rfl rfl 6144 rfl (ix1 q) (fun b => match b with
      | ⟨0, _⟩ => fun hne => absurd rfl hne)
    rfl

/-! ### One gate's pre-activation

The one product over the 4096 joined columns, at batch row `p` and stacked row `r`, is the sum over the input half plus
the sum over the hidden half; where the stacked row `r` holds row `q` of a gate's weights `W` and bias `b`, that is
the gate's pre-activation. Only the commutative-monoid laws of `+` are used. -/

theorem pre_eq (x0 x1 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (W : FVec Ideal S2048x4096 .f32) (b : FVec Ideal S2048 .f32)
    (p r : Fin 8192) (q : Fin 2048)
    (hW : ∀ c : Fin 4096, val_main_v1 (F := Ideal) x3 x5 x7 x9 (ix2 r c) = W (ix2 q c))
    (hb : val_main_v2 (F := Ideal) x4 x6 x8 x10 (ix1 r) = b (ix1 q)) :
    val_main_v7 (F := Ideal) x0 x1 x3 x4 x5 x6 x7 x8 x9 x10 (ix2 p r) = Cert.Lstm.gate x0 x1 W b p q := by
  rw [val_main_v7_apply, val_main_v4_apply, val_main_v6_apply, val_main_v5_apply]
  have e2 : idx_main_v5 (idx_main_v6 (ix2 p r)) = ix1 r := funext fun a => match a with
    | ⟨0, _⟩ => rfl
  have el : ∀ k : Fin 4096, lidx_main_v4 (ix2 p r) k = ix2 p k := fun k => funext fun a => match a with
    | ⟨0, _⟩ => rfl
    | ⟨1, _⟩ => rfl
  have er : ∀ k : Fin 4096, idx_main_v3 (ridx_main_v4 (ix2 p r) k) = ix2 r k := fun k => funext fun a => match a with
    | ⟨0, _⟩ => rfl
    | ⟨1, _⟩ => rfl
  rw [e2, hb]
  have es : ∀ k : Fin 4096,
      val_main_v0 (F := Ideal) x0 x1 (lidx_main_v4 (ix2 p r) k) * val_main_v3 (F := Ideal) x3 x5 x7 x9 (ridx_main_v4 (ix2 p r) k)
        = val_main_v0 (F := Ideal) x0 x1 (ix2 p k) * W (ix2 q k) := fun k => by
    rw [val_main_v3_apply, el k, er k, hW k]
  rw [Finset.sum_congr rfl fun k _ => es k, Cert.Lstm.sum_halves]
  simp only [v0_in, v0_hid]
  rfl

/-- The forget gate's slice of the product is its pre-activation. -/
theorem gateF_eq (x0 x1 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (p : Fin 8192) (q : Fin 2048) :
    val_main_v8 (F := Ideal) x0 x1 x3 x4 x5 x6 x7 x8 x9 x10 (ix2 p q) = Cert.Lstm.gate x0 x1 x3 x4 p q := by
  rw [val_main_v8_apply]
  have e : idx_main_v8 (ix2 p q) = ix2 p (rowF q) := funext fun a => match a with
    | ⟨0, _⟩ => rfl
    | ⟨1, _⟩ => rfl
  rw [e]
  exact pre_eq x0 x1 x3 x4 x5 x6 x7 x8 x9 x10 x3 x4 p (rowF q) q (fun c => v1_rowF x3 x5 x7 x9 q c) (v2_rowF x4 x6 x8 x10 q)

/-- The input gate's slice of the product is its pre-activation. -/
theorem gateI_eq (x0 x1 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (p : Fin 8192) (q : Fin 2048) :
    val_main_v9 (F := Ideal) x0 x1 x3 x4 x5 x6 x7 x8 x9 x10 (ix2 p q) = Cert.Lstm.gate x0 x1 x5 x6 p q := by
  rw [val_main_v9_apply]
  have e : idx_main_v9 (ix2 p q) = ix2 p (rowI q) := funext fun a => match a with
    | ⟨0, _⟩ => rfl
    | ⟨1, _⟩ => rfl
  rw [e]
  exact pre_eq x0 x1 x3 x4 x5 x6 x7 x8 x9 x10 x5 x6 p (rowI q) q (fun c => v1_rowI x3 x5 x7 x9 q c) (v2_rowI x4 x6 x8 x10 q)

/-- The candidate gate's slice of the product is its pre-activation. -/
theorem gateG_eq (x0 x1 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (p : Fin 8192) (q : Fin 2048) :
    val_main_v10 (F := Ideal) x0 x1 x3 x4 x5 x6 x7 x8 x9 x10 (ix2 p q) = Cert.Lstm.gate x0 x1 x7 x8 p q := by
  rw [val_main_v10_apply]
  have e : idx_main_v10 (ix2 p q) = ix2 p (rowG q) := funext fun a => match a with
    | ⟨0, _⟩ => rfl
    | ⟨1, _⟩ => rfl
  rw [e]
  exact pre_eq x0 x1 x3 x4 x5 x6 x7 x8 x9 x10 x7 x8 p (rowG q) q (fun c => v1_rowG x3 x5 x7 x9 q c) (v2_rowG x4 x6 x8 x10 q)

/-- The output gate's slice of the product is its pre-activation. -/
theorem gateO_eq (x0 x1 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (p : Fin 8192) (q : Fin 2048) :
    val_main_v11 (F := Ideal) x0 x1 x3 x4 x5 x6 x7 x8 x9 x10 (ix2 p q) = Cert.Lstm.gate x0 x1 x9 x10 p q := by
  rw [val_main_v11_apply]
  have e : idx_main_v11 (ix2 p q) = ix2 p (rowO q) := funext fun a => match a with
    | ⟨0, _⟩ => rfl
    | ⟨1, _⟩ => rfl
  rw [e]
  exact pre_eq x0 x1 x3 x4 x5 x6 x7 x8 x9 x10 x9 x10 p (rowO q) q (fun c => v1_rowO x3 x5 x7 x9 q c) (v2_rowO x4 x6 x8 x10 q)

/-! ### The two results -/

theorem cell_eq (x0 x1 x2 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) :
    val_main_v33 (F := Ideal) x0 x1 x2 x3 x4 x5 x6 x7 x8 x9 x10 = Cert.Lstm.cellOut x0 x1 x2 x3 x4 x5 x6 x7 x8 := by
  funext j
  obtain ⟨p, q, rfl⟩ : ∃ (p : Fin 8192) (q : Fin 2048), j = ix2 p q := ⟨j 0, j 1, eq_ix2 j⟩
  simp only [val_main_v33_apply, val_main_v31_apply, val_main_v32_apply, val_main_v17_apply, val_main_v23_apply, val_main_v24_apply, val_main_v16_apply, val_main_v22_apply, val_main_v15_apply, val_main_v21_apply, val_main_v14_apply, val_main_v20_apply, val_main_v13_apply, val_main_v19_apply, val_main_v12_apply, val_main_v18_apply, val_main_cst_apply, val_main_cst_0_apply, val_main_cst_1_apply, val_main_cst_2_apply,
    gateF_eq, gateI_eq, gateG_eq,
    Ideal.hostNegf_def, Ideal.negf_def, Ideal.hostUnary_exp_def, Ideal.hostUnary_tanh_def, Ideal.hostDivf_def, Ideal.addf_def, Ideal.mulf_def, Ideal.ofBits_def, Ideal.ofBits_one_f32]
  rfl

theorem hid_eq (x0 x1 x2 : FVec Ideal S8192x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) :
    val_main_v35 (F := Ideal) x0 x1 x2 x3 x4 x5 x6 x7 x8 x9 x10 = Cert.Lstm.hidOut x0 x1 x2 x3 x4 x5 x6 x7 x8 x9 x10 := by
  funext j
  obtain ⟨p, q, rfl⟩ : ∃ (p : Fin 8192) (q : Fin 2048), j = ix2 p q := ⟨j 0, j 1, eq_ix2 j⟩
  rw [val_main_v35_apply, val_main_v34_apply, cell_eq]
  simp only [val_main_v30_apply, val_main_v29_apply, val_main_v28_apply, val_main_v27_apply, val_main_v26_apply, val_main_v25_apply, val_main_cst_3_apply, val_main_cst_4_apply,
    gateO_eq,
    Ideal.hostNegf_def, Ideal.negf_def, Ideal.hostUnary_exp_def, Ideal.hostUnary_tanh_def, Ideal.hostDivf_def, Ideal.addf_def, Ideal.mulf_def, Ideal.ofBits_def, Ideal.ofBits_one_f32]
  rfl

end Cert.ReferenceIdeal.Bridge

end
-- ==== Proof.KernelGate.lean ====
/-
  The body's two stored values at an index of the block, on the extended reals.
-/
import proofs.«170830_j49160195670661_1_alg».proof.Proof.Gen.KernelIdeal.Frame
import proofs.«170830_j49160195670661_1_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx

/-- One gate's pre-activation inside a block, at row `r` of the batch blocks and row `s` of the weight blocks. -/
def blockGate (xb hb : S512x2048.Idx → EReal) (win wh : S128x2048.Idx → EReal) (bb : S1x128.Idx → EReal)
    (r : Fin 512) (s : Fin 128) : EReal :=
  (∑ k : Fin 2048, xb (ix2 r k) * win (ix2 s k) + ∑ k : Fin 2048, hb (ix2 r k) * wh (ix2 s k)) + bb (ix2 (0 : Fin 1) s)

/-- The new cell state inside a block. -/
def blockCell (xb hb : S512x2048.Idx → EReal) (cb : S512x128.Idx → EReal) (wfi wfh wii wih wgi wgh : S128x2048.Idx → EReal)
    (bf bi bg : S1x128.Idx → EReal) (r : Fin 512) (s : Fin 128) : EReal :=
  Ideal.logistic (blockGate xb hb wfi wfh bf r s) * cb (ix2 r s)
    + Ideal.logistic (blockGate xb hb wii wih bi r s) * Ideal.tanh (blockGate xb hb wgi wgh bg r s)

/-! ## The block's contraction read at an index

Both operands of the block's product contract their second axis: the left operand is read at (output row, contraction
position), the right operand at (output column, contraction position). -/

/-- The left operand's row is the output's row. -/
theorem lhs_blockDot_0 (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide), dif_pos (show (0 : Fin S512x2048.rank) ∈ dot_S512x2048_S128x2048_S512x128_1_1_0_0_n_n.lhsNonContracting by decide)]
  rfl
/-- The left operand's column is the contraction position. -/
theorem lhs_blockDot_1 (i : S512x128.Idx) (q : dot_S512x2048_S128x2048_S512x128_1_1_0_0_n_n.contr.Idx) :
    (dot_S512x2048_S128x2048_S512x128_1_1_0_0_n_n.lhsIdx i q 1).val = (q ⟨0, by decide⟩).val :=
  dot_S512x2048_S128x2048_S512x128_1_1_0_0_n_n.lhsIdx_val_of_single rfl i q
/-- The right operand's row is the output's column. -/
theorem rhs_blockDot_0 (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide), dif_pos (show (0 : Fin S128x2048.rank) ∈ dot_S512x2048_S128x2048_S512x128_1_1_0_0_n_n.rhsNonContracting by decide)]
  rfl
/-- The right operand's column is the contraction position. -/
theorem rhs_blockDot_1 (i : S512x128.Idx) (q : dot_S512x2048_S128x2048_S512x128_1_1_0_0_n_n.contr.Idx) :
    (dot_S512x2048_S128x2048_S512x128_1_1_0_0_n_n.rhsIdx i q 1).val = (q ⟨0, by decide⟩).val :=
  dot_S512x2048_S128x2048_S512x128_1_1_0_0_n_n.rhsIdx_val_of_single rfl i q

/-- The block product into a zero accumulator, at row `r` and column `s`: the inner product of row `r` of the left
    operand with row `s` of the right operand. -/
theorem blockDot_apply (a : FVec Ideal S512x2048 .bf16) (w : FVec Ideal S128x2048 .bf16) (r : Fin 512) (s : Fin 128) :
    matmul dot_S512x2048_S128x2048_S512x128_1_1_0_0_n_n none a w (constant S512x128 .f32 0x00000000#32) (ix2 r s)
      = ∑ k : Fin 2048, a (ix2 r k) * w (ix2 s k) := by
  show FloatOps.matmul dot_S512x2048_S128x2048_S512x128_1_1_0_0_n_n none a w (constant S512x128 .f32 0x00000000#32) (ix2 r s) = _
  rw [Ideal.matmul_constant_zero_apply, ← Equiv.sum_comp (ValueIdx.contrEquiv1 dot_S512x2048_S128x2048_S512x128_1_1_0_0_n_n 2048 rfl rfl).symm]
  refine Finset.sum_congr rfl fun k _ => ?_
  have hk := ValueIdx.contrEquiv1_symm_val dot_S512x2048_S128x2048_S512x128_1_1_0_0_n_n 2048 rfl rfl k
  have el : dot_S512x2048_S128x2048_S512x128_1_1_0_0_n_n.lhsIdx (ix2 r s) ((ValueIdx.contrEquiv1 dot_S512x2048_S128x2048_S512x128_1_1_0_0_n_n 2048 rfl rfl).symm k) = ix2 r k := funext fun c => Fin.ext (by
    match c with
    | ⟨0, _⟩ => exact lhs_blockDot_0 _ _
    | ⟨1, _⟩ => exact (lhs_blockDot_1 _ _).trans hk)
  have er : dot_S512x2048_S128x2048_S512x128_1_1_0_0_n_n.rhsIdx (ix2 r s) ((ValueIdx.contrEquiv1 dot_S512x2048_S128x2048_S512x128_1_1_0_0_n_n 2048 rfl rfl).symm k) = ix2 s k := funext fun c => Fin.ext (by
    match c with
    | ⟨0, _⟩ => exact rhs_blockDot_0 _ _
    | ⟨1, _⟩ => exact (rhs_blockDot_1 _ _).trans hk)
  rw [el, er]

/-! ## The bias row, repeated down the block -/

/-- The bias row broadcast to every row of the block reads, at row `r` and column `s`, the row's entry `s`. -/
theorem biasRow_apply (b : FVec Ideal S1x128 .f32) (r : Fin 512) (s : Fin 128) :
    broadcastTo S512x128 (shapeCast S1x128 b shapeCasts_S1x128_S1x128) broadcasts_S1x128_S512x128 (ix2 r s)
      = b (ix2 (0 : Fin 1) s) := by
  rw [shapeCast_self b shapeCasts_S1x128_S1x128]
  exact broadcastTo_apply b broadcasts_S1x128_S512x128 (ix2 r s) (ix2 (0 : Fin 1) s) (fun c => match c with
    | ⟨0, _⟩ => by show 0 = (if (1 : Nat) = 1 then 0 else r.val); rw [if_pos rfl]
    | ⟨1, _⟩ => by show s.val = (if (128 : Nat) = 1 then 0 else s.val); rw [if_neg (by decide)])

/-! ## One gate's pre-activation -/

/-- The sum of the two block products (input half, hidden half) plus the repeated bias row, at an index. -/
theorem gateSum_apply (a h : FVec Ideal S512x2048 .bf16) (w1 w2 : FVec Ideal S128x2048 .bf16) (b : FVec Ideal S1x128 .f32)
    (r : Fin 512) (s : Fin 128) :
    addf (addf (matmul dot_S512x2048_S128x2048_S512x128_1_1_0_0_n_n none a (shapeCast S128x2048 w1 shapeCasts_S128x2048_S128x2048) (constant S512x128 .f32 0x00000000#32))
               (matmul dot_S512x2048_S128x2048_S512x128_1_1_0_0_n_n none h (shapeCast S128x2048 w2 shapeCasts_S128x2048_S128x2048) (constant S512x128 .f32 0x00000000#32)))
         (broadcastTo S512x128 (shapeCast S1x128 b shapeCasts_S1x128_S1x128) broadcasts_S1x128_S512x128) (ix2 r s)
      = blockGate a h w1 w2 b r s := by
  rw [shapeCast_self w1 shapeCasts_S128x2048_S128x2048, shapeCast_self w2 shapeCasts_S128x2048_S128x2048]
  refine (addf_apply _ _ _).trans ?_
  refine congrArg₂ (· + ·) ((addf_apply _ _ _).trans (congrArg₂ (· + ·) (blockDot_apply a w1 r s) (blockDot_apply h w2 r s))) (biasRow_apply b r s)

/-- The identity shape casts of the two batch blocks. -/
theorem pay3_eq (x : FVec Ideal S512x2048 .bf16) : k0_pay3 (F := Ideal) x = x := shapeCast_self x shapeCasts_S512x2048_S512x2048
theorem pay4_eq (x : FVec Ideal S512x2048 .bf16) : k0_pay4 (F := Ideal) x = x := shapeCast_self x shapeCasts_S512x2048_S512x2048

/-- The forget gate's pre-activation. -/
theorem pay5_apply (x h : FVec Ideal S512x2048 .bf16) (w1 w2 : FVec Ideal S128x2048 .bf16) (b : FVec Ideal S1x128 .f32)
    (r : Fin 512) (s : Fin 128) : k0_pay5 (F := Ideal) x h w1 w2 b (ix2 r s) = blockGate x h w1 w2 b r s := by
  unfold k0_pay5
  rw [pay3_eq, pay4_eq]
  exact gateSum_apply x h w1 w2 b r s

/-- The input gate's pre-activation. -/
theorem pay6_apply (x h : FVec Ideal S512x2048 .bf16) (w1 w2 : FVec Ideal S128x2048 .bf16) (b : FVec Ideal S1x128 .f32)
    (r : Fin 512) (s : Fin 128) : k0_pay6 (F := Ideal) x h w1 w2 b (ix2 r s) = blockGate x h w1 w2 b r s := by
  unfold k0_pay6
  rw [pay3_eq, pay4_eq]
  exact gateSum_apply x h w1 w2 b r s

/-- The candidate's pre-activation: its two block products are carried separately and summed with the bias row where the
    cell state is formed. -/
theorem pay78_apply (x h : FVec Ideal S512x2048 .bf16) (w1 w2 : FVec Ideal S128x2048 .bf16) (b : FVec Ideal S1x128 .f32)
    (r : Fin 512) (s : Fin 128) :
    addf (addf (k0_pay7 (F := Ideal) x w1) (k0_pay8 (F := Ideal) h w2))
        (broadcastTo S512x128 (shapeCast S1x128 b shapeCasts_S1x128_S1x128) broadcasts_S1x128_S512x128) (ix2 r s)
      = blockGate x h w1 w2 b r s := by
  unfold k0_pay7 k0_pay8
  rw [pay3_eq, pay4_eq]
  exact gateSum_apply x h w1 w2 b r s

/-- The new cell state's payload at an index, over the blocks as variables. -/
theorem pay1_apply (x h : FVec Ideal S512x2048 .bf16) (c : FVec Ideal S512x128 .f32) (wfi wfh wii wih wgi wgh : FVec Ideal S128x2048 .bf16)
    (bf bi bg : FVec Ideal S1x128 .f32) (r : Fin 512) (s : Fin 128) :
    k0_pay1 (F := Ideal) (k0_pay5 x h wfi wfh bf) (k0_pay6 x h wii wih bi) (k0_pay7 x wgi) (k0_pay8 h wgh) bg c (ix2 r s)
      = blockCell x h c wfi wfh wii wih wgi wgh bf bi bg r s := by
  show Ideal.logistic (k0_pay5 (F := Ideal) x h wfi wfh bf (ix2 r s)) * c (ix2 r s)
      + Ideal.logistic (k0_pay6 (F := Ideal) x h wii wih bi (ix2 r s))
        * Ideal.tanh (addf (addf (k0_pay7 (F := Ideal) x wgi) (k0_pay8 (F := Ideal) h wgh))
            (broadcastTo S512x128 (shapeCast S1x128 bg shapeCasts_S1x128_S1x128) broadcasts_S1x128_S512x128) (ix2 r s)) = _
  rw [pay5_apply, pay6_apply, pay78_apply]
  rfl

/-- The new hidden state's payload at an index, over the blocks as variables: the output gate's pre-activation is formed
    inside it, and the cell state's payload enters it whole. -/
theorem pay2_apply (x h : FVec Ideal S512x2048 .bf16) (c : FVec Ideal S512x128 .f32) (wfi wfh wii wih wgi wgh woi woh : FVec Ideal S128x2048 .bf16)
    (bf bi bg bo : FVec Ideal S1x128 .f32) (r : Fin 512) (s : Fin 128) :
    k0_pay2 (F := Ideal) (k0_pay3 x) (k0_pay4 h) (k0_pay5 x h wfi wfh bf) (k0_pay6 x h wii wih bi) (k0_pay7 x wgi) (k0_pay8 h wgh)
        bg woi woh bo c (ix2 r s)
      = Ideal.logistic (blockGate x h woi woh bo r s) * Ideal.tanh (blockCell x h c wfi wfh wii wih wgi wgh bf bi bg r s) := by
  show Ideal.logistic (addf (addf (matmul dot_S512x2048_S128x2048_S512x128_1_1_0_0_n_n none (k0_pay3 (F := Ideal) x) (shapeCast S128x2048 woi shapeCasts_S128x2048_S128x2048) (constant S512x128 .f32 0x00000000#32))
               (matmul dot_S512x2048_S128x2048_S512x128_1_1_0_0_n_n none (k0_pay4 (F := Ideal) h) (shapeCast S128x2048 woh shapeCasts_S128x2048_S128x2048) (constant S512x128 .f32 0x00000000#32)))
         (broadcastTo S512x128 (shapeCast S1x128 bo shapeCasts_S1x128_S1x128) broadcasts_S1x128_S512x128) (ix2 r s))
      * Ideal.tanh (k0_pay1 (F := Ideal) (k0_pay5 x h wfi wfh bf) (k0_pay6 x h wii wih bi) (k0_pay7 x wgi) (k0_pay8 h wgh) bg c (ix2 r s)) = _
  rw [pay3_eq, pay4_eq, gateSum_apply, pay1_apply]

theorem out16_apply (x0 x1 : Vec Ideal S512x2048 .bf16) (x2 : Vec Ideal S512x128 .f32) (x3 x4 x5 x6 x7 x8 x9 x10 : Vec Ideal S128x2048 .bf16) (x11 x12 x13 x14 : Vec Ideal S1x128 .f32) (r : Fin 512) (s : Fin 128) :
    out0_16 (F := Ideal) x0 x1 x2 x3 x4 x5 x6 x7 x8 x9 x10 x11 x12 x13 x14 (ix2 r s)
      = blockCell x0 x1 x2 x3 x4 x5 x6 x7 x8 x11 x12 x13 r s := by
  have hz : (![0, 0] : Fin 2 → Nat) = fun _ => 0 := funext fun a => by fin_cases a <;> rfl
  unfold out0_16
  rw [View.canon_unit_zero hz]
  simp only [View.ld_unit_zero (S := S512x2048) hz, View.ld_unit_zero (S := S128x2048) hz, View.ld_unit_zero (S := S1x128) hz,
    View.ld_unit_zero (S := S512x128) hz]
  exact pay1_apply x0 x1 x2 x3 x4 x5 x6 x7 x8 x11 x12 x13 r s

theorem out15_apply (x0 x1 : Vec Ideal S512x2048 .bf16) (x2 : Vec Ideal S512x128 .f32) (x3 x4 x5 x6 x7 x8 x9 x10 : Vec Ideal S128x2048 .bf16) (x11 x12 x13 x14 : Vec Ideal S1x128 .f32) (r : Fin 512) (s : Fin 128) :
    out0_15 (F := Ideal) x0 x1 x2 x3 x4 x5 x6 x7 x8 x9 x10 x11 x12 x13 x14 (ix2 r s)
      = Ideal.logistic (blockGate x0 x1 x9 x10 x14 r s) * Ideal.tanh (blockCell x0 x1 x2 x3 x4 x5 x6 x7 x8 x11 x12 x13 r s) := by
  have hz : (![0, 0] : Fin 2 → Nat) = fun _ => 0 := funext fun a => by fin_cases a <;> rfl
  unfold out0_15
  rw [View.canon_unit_zero hz]
  simp only [View.ld_unit_zero (S := S512x2048) hz, View.ld_unit_zero (S := S128x2048) hz, View.ld_unit_zero (S := S1x128) hz,
    View.ld_unit_zero (S := S512x128) hz]
  exact pay2_apply x0 x1 x2 x3 x4 x5 x6 x7 x8 x9 x10 x11 x12 x13 x14 r s

end Cert.KernelIdeal.Block

end
-- ==== Proof.KernelHost.lean ====
/-
  What the arrays the kernel region stages hold when the region is entered, as functions of the argument arrays.
-/
import proofs.«170830_j49160195670661_1_alg».proof.Proof.Gen.KernelIdeal.Frame
import proofs.«170830_j49160195670661_1_alg».proof.Proof.Spec
import Idealize.ShloMosaic.Lib.ValueIdx
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx Idealize.SL.Sem
open Idealize.ShloMosaic.StableHlo

/-! ## The three layout readings, over an arbitrary operand

Narrowing the float format changes no extended real, so a narrowed matrix read at an index is the matrix there; a
window of 2048 columns starting at column `o` read at `(r, k)` is the matrix at `(r, o + k)`; and a vector of length
2048 laid out as one row reads, at `(0, k)`, its `k`-th entry (both sit at row-major position `k`). -/

/-- Narrowing then reading is reading. -/
theorem narrow_read (y : FVec Ideal S8192x2048 .f32) :
    (truncf .bf16 y bitsLt_bf16_f32 : FVec Ideal S8192x2048 .bf16) = y :=
  funext fun i => truncf_apply y bitsLt_bf16_f32 i

/-- The left window (columns `0 … 2047`) of a narrowed weight matrix at `(r, k)` is the matrix at `(r, k)`. -/
theorem left_window_read (y : FVec Ideal S2048x4096 .f32) (i : S2048x2048.Idx) :
    (extractStridedSlice S2048x2048 ![0, 0] (truncf .bf16 y bitsLt_bf16_f32 : FVec Ideal S2048x4096 .bf16)
        slices_S2048x4096_S2048x2048_0_0 : FVec Ideal S2048x2048 .bf16) i
      = y (ix2 (i 0) (Cert.Lstm.inCol (i 1))) := by
  refine (extractStridedSlice_apply ![0, 0] _ slices_S2048x4096_S2048x2048_0_0 i
    (ix2 (i 0) (Cert.Lstm.inCol (i 1))) (fun a => match a with
      | ⟨0, _⟩ => by show (i 0).val = 0 + (i 0).val; omega
      | ⟨1, _⟩ => by show (i 1).val = 0 + (i 1).val; omega)).trans ?_
  exact truncf_apply y bitsLt_bf16_f32 _

/-- The right window (columns `2048 … 4095`) of a narrowed weight matrix at `(r, k)` is the matrix at `(r, 2048 + k)`. -/
theorem right_window_read (y : FVec Ideal S2048x4096 .f32) (i : S2048x2048.Idx) :
    (extractStridedSlice S2048x2048 ![0, 2048] (truncf .bf16 y bitsLt_bf16_f32 : FVec Ideal S2048x4096 .bf16)
        slices_S2048x4096_S2048x2048_0_2048 : FVec Ideal S2048x2048 .bf16) i
      = y (ix2 (i 0) (Cert.Lstm.hidCol (i 1))) := by
  refine (extractStridedSlice_apply ![0, 2048] _ slices_S2048x4096_S2048x2048_0_2048 i
    (ix2 (i 0) (Cert.Lstm.hidCol (i 1))) (fun a => match a with
      | ⟨0, _⟩ => by show (i 0).val = 0 + (i 0).val; omega
      | ⟨1, _⟩ => by show 2048 + (i 1).val = 2048 + (i 1).val; omega)).trans ?_
  exact truncf_apply y bitsLt_bf16_f32 _

/-- A length-2048 vector laid out as a single row: the entry at `(0, k)` is the vector's `k`-th entry, since the
    row index is `0` and so both have row-major position `k`. -/
theorem one_row_read (y : S2048.Idx → EReal) (i : S1x2048.Idx) :
    (shapeCast S1x2048 y shapeCasts_S2048_S1x2048 : S1x2048.Idx → EReal) i = y (ix1 (i 1)) := by
  refine shapeCast_apply y shapeCasts_S2048_S1x2048 i (ix1 (i 1)) ?_
  rw [Shape.rowMajor_val_one, Shape.rowMajor_val_two]
  have h0 : (i 0).val < 1 := (i 0).isLt
  show (i 1).val = (i 0).val * 2048 + (i 1).val
  omega

variable (m : (ℓ : Loc nD τ sig) → Buf (Elt Ideal) ℓ)

/-! ## The staged arrays

Each staged array is written once by the operations before the region: its contents there are that operation's
function of the argument array, read at an index by the lemmas above. -/

/-- The batch rows the region stages are the input rows themselves: narrowing the float format changes no value here. -/
theorem V_x (c : Dev nD) : (V m c main_v0 : S8192x2048.Idx → EReal) = (m ((c : Thread nD τ).loc main_arg0) : S8192x2048.Idx → EReal) := by
  have e : (V m c main_v0 : S8192x2048.Idx → EReal)
      = (truncf (F := Ideal) (s := S8192x2048) (φ := .f32) .bf16 (m ((c : Thread nD τ).loc main_arg0)) bitsLt_bf16_f32 : FVec Ideal S8192x2048 .bf16) := by
    dsimp only [Gen.V, Gen.hostOps0]; after_results
  rw [e]
  exact narrow_read _

theorem V_h (c : Dev nD) : (V m c main_v1 : S8192x2048.Idx → EReal) = (m ((c : Thread nD τ).loc main_arg1) : S8192x2048.Idx → EReal) := by
  have e : (V m c main_v1 : S8192x2048.Idx → EReal)
      = (truncf (F := Ideal) (s := S8192x2048) (φ := .f32) .bf16 (m ((c : Thread nD τ).loc main_arg1)) bitsLt_bf16_f32 : FVec Ideal S8192x2048 .bf16) := by
    dsimp only [Gen.V, Gen.hostOps0]; after_results
  rw [e]
  exact narrow_read _

/-- Gate f's input-half weights: columns `0 … 2047` of its weight matrix. -/
theorem V_wf_in (c : Dev nD) : (V m c main_v3 : S2048x2048.Idx → EReal)
    = fun i => (m ((c : Thread nD τ).loc main_arg3) : S2048x4096.Idx → EReal) (ix2 (i 0) (Cert.Lstm.inCol (i 1))) := by
  have e : (V m c main_v3 : S2048x2048.Idx → EReal)
      = (extractStridedSlice S2048x2048 ![0, 0]
          (truncf (F := Ideal) (s := S2048x4096) (φ := .f32) .bf16 (m ((c : Thread nD τ).loc main_arg3)) bitsLt_bf16_f32 : FVec Ideal S2048x4096 .bf16)
          slices_S2048x4096_S2048x2048_0_0 : FVec Ideal S2048x2048 .bf16) := by
    dsimp only [Gen.V, Gen.hostOps0]; after_results
  rw [e]
  funext i
  exact left_window_read _ i

/-- Gate f's hidden-half weights: columns `2048 … 4095` of its weight matrix. -/
theorem V_wf_hid (c : Dev nD) : (V m c main_v4 : S2048x2048.Idx → EReal)
    = fun i => (m ((c : Thread nD τ).loc main_arg3) : S2048x4096.Idx → EReal) (ix2 (i 0) (Cert.Lstm.hidCol (i 1))) := by
  have e : (V m c main_v4 : S2048x2048.Idx → EReal)
      = (extractStridedSlice S2048x2048 ![0, 2048]
          (truncf (F := Ideal) (s := S2048x4096) (φ := .f32) .bf16 (m ((c : Thread nD τ).loc main_arg3)) bitsLt_bf16_f32 : FVec Ideal S2048x4096 .bf16)
          slices_S2048x4096_S2048x2048_0_2048 : FVec Ideal S2048x2048 .bf16) := by
    dsimp only [Gen.V, Gen.hostOps0]; after_results
  rw [e]
  funext i
  exact right_window_read _ i

/-- Gate i's input-half weights: columns `0 … 2047` of its weight matrix. -/
theorem V_wi_in (c : Dev nD) : (V m c main_v6 : S2048x2048.Idx → EReal)
    = fun i => (m ((c : Thread nD τ).loc main_arg5) : S2048x4096.Idx → EReal) (ix2 (i 0) (Cert.Lstm.inCol (i 1))) := by
  have e : (V m c main_v6 : S2048x2048.Idx → EReal)
      = (extractStridedSlice S2048x2048 ![0, 0]
          (truncf (F := Ideal) (s := S2048x4096) (φ := .f32) .bf16 (m ((c : Thread nD τ).loc main_arg5)) bitsLt_bf16_f32 : FVec Ideal S2048x4096 .bf16)
          slices_S2048x4096_S2048x2048_0_0 : FVec Ideal S2048x2048 .bf16) := by
    dsimp only [Gen.V, Gen.hostOps0]; after_results
  rw [e]
  funext i
  exact left_window_read _ i

/-- Gate i's hidden-half weights: columns `2048 … 4095` of its weight matrix. -/
theorem V_wi_hid (c : Dev nD) : (V m c main_v7 : S2048x2048.Idx → EReal)
    = fun i => (m ((c : Thread nD τ).loc main_arg5) : S2048x4096.Idx → EReal) (ix2 (i 0) (Cert.Lstm.hidCol (i 1))) := by
  have e : (V m c main_v7 : S2048x2048.Idx → EReal)
      = (extractStridedSlice S2048x2048 ![0, 2048]
          (truncf (F := Ideal) (s := S2048x4096) (φ := .f32) .bf16 (m ((c : Thread nD τ).loc main_arg5)) bitsLt_bf16_f32 : FVec Ideal S2048x4096 .bf16)
          slices_S2048x4096_S2048x2048_0_2048 : FVec Ideal S2048x2048 .bf16) := by
    dsimp only [Gen.V, Gen.hostOps0]; after_results
  rw [e]
  funext i
  exact right_window_read _ i

/-- Gate g's input-half weights: columns `0 … 2047` of its weight matrix. -/
theorem V_wg_in (c : Dev nD) : (V m c main_v9 : S2048x2048.Idx → EReal)
    = fun i => (m ((c : Thread nD τ).loc main_arg7) : S2048x4096.Idx → EReal) (ix2 (i 0) (Cert.Lstm.inCol (i 1))) := by
  have e : (V m c main_v9 : S2048x2048.Idx → EReal)
      = (extractStridedSlice S2048x2048 ![0, 0]
          (truncf (F := Ideal) (s := S2048x4096) (φ := .f32) .bf16 (m ((c : Thread nD τ).loc main_arg7)) bitsLt_bf16_f32 : FVec Ideal S2048x4096 .bf16)
          slices_S2048x4096_S2048x2048_0_0 : FVec Ideal S2048x2048 .bf16) := by
    dsimp only [Gen.V, Gen.hostOps0]; after_results
  rw [e]
  funext i
  exact left_window_read _ i

/-- Gate g's hidden-half weights: columns `2048 … 4095` of its weight matrix. -/
theorem V_wg_hid (c : Dev nD) : (V m c main_v10 : S2048x2048.Idx → EReal)
    = fun i => (m ((c : Thread nD τ).loc main_arg7) : S2048x4096.Idx → EReal) (ix2 (i 0) (Cert.Lstm.hidCol (i 1))) := by
  have e : (V m c main_v10 : S2048x2048.Idx → EReal)
      = (extractStridedSlice S2048x2048 ![0, 2048]
          (truncf (F := Ideal) (s := S2048x4096) (φ := .f32) .bf16 (m ((c : Thread nD τ).loc main_arg7)) bitsLt_bf16_f32 : FVec Ideal S2048x4096 .bf16)
          slices_S2048x4096_S2048x2048_0_2048 : FVec Ideal S2048x2048 .bf16) := by
    dsimp only [Gen.V, Gen.hostOps0]; after_results
  rw [e]
  funext i
  exact right_window_read _ i

/-- Gate o's input-half weights: columns `0 … 2047` of its weight matrix. -/
theorem V_wo_in (c : Dev nD) : (V m c main_v12 : S2048x2048.Idx → EReal)
    = fun i => (m ((c : Thread nD τ).loc main_arg9) : S2048x4096.Idx → EReal) (ix2 (i 0) (Cert.Lstm.inCol (i 1))) := by
  have e : (V m c main_v12 : S2048x2048.Idx → EReal)
      = (extractStridedSlice S2048x2048 ![0, 0]
          (truncf (F := Ideal) (s := S2048x4096) (φ := .f32) .bf16 (m ((c : Thread nD τ).loc main_arg9)) bitsLt_bf16_f32 : FVec Ideal S2048x4096 .bf16)
          slices_S2048x4096_S2048x2048_0_0 : FVec Ideal S2048x2048 .bf16) := by
    dsimp only [Gen.V, Gen.hostOps0]; after_results
  rw [e]
  funext i
  exact left_window_read _ i

/-- Gate o's hidden-half weights: columns `2048 … 4095` of its weight matrix. -/
theorem V_wo_hid (c : Dev nD) : (V m c main_v13 : S2048x2048.Idx → EReal)
    = fun i => (m ((c : Thread nD τ).loc main_arg9) : S2048x4096.Idx → EReal) (ix2 (i 0) (Cert.Lstm.hidCol (i 1))) := by
  have e : (V m c main_v13 : S2048x2048.Idx → EReal)
      = (extractStridedSlice S2048x2048 ![0, 2048]
          (truncf (F := Ideal) (s := S2048x4096) (φ := .f32) .bf16 (m ((c : Thread nD τ).loc main_arg9)) bitsLt_bf16_f32 : FVec Ideal S2048x4096 .bf16)
          slices_S2048x4096_S2048x2048_0_2048 : FVec Ideal S2048x2048 .bf16) := by
    dsimp only [Gen.V, Gen.hostOps0]; after_results
  rw [e]
  funext i
  exact right_window_read _ i

/-- Gate f's bias as one row. -/
theorem V_bf (c : Dev nD) : (V m c main_v14 : S1x2048.Idx → EReal)
    = fun i => (m ((c : Thread nD τ).loc main_arg4) : S2048.Idx → EReal) (ix1 (i 1)) := by
  have e : (V m c main_v14 : S1x2048.Idx → EReal)
      = (shapeCast S1x2048 (m ((c : Thread nD τ).loc main_arg4) : S2048.Idx → EReal) shapeCasts_S2048_S1x2048 : S1x2048.Idx → EReal) := by
    dsimp only [Gen.V, Gen.hostOps0]; after_results; rfl
  rw [e]
  funext i
  exact one_row_read _ i

/-- Gate i's bias as one row. -/
theorem V_bi (c : Dev nD) : (V m c main_v15 : S1x2048.Idx → EReal)
    = fun i => (m ((c : Thread nD τ).loc main_arg6) : S2048.Idx → EReal) (ix1 (i 1)) := by
  have e : (V m c main_v15 : S1x2048.Idx → EReal)
      = (shapeCast S1x2048 (m ((c : Thread nD τ).loc main_arg6) : S2048.Idx → EReal) shapeCasts_S2048_S1x2048 : S1x2048.Idx → EReal) := by
    dsimp only [Gen.V, Gen.hostOps0]; after_results; rfl
  rw [e]
  funext i
  exact one_row_read _ i

/-- Gate g's bias as one row. -/
theorem V_bg (c : Dev nD) : (V m c main_v16 : S1x2048.Idx → EReal)
    = fun i => (m ((c : Thread nD τ).loc main_arg8) : S2048.Idx → EReal) (ix1 (i 1)) := by
  have e : (V m c main_v16 : S1x2048.Idx → EReal)
      = (shapeCast S1x2048 (m ((c : Thread nD τ).loc main_arg8) : S2048.Idx → EReal) shapeCasts_S2048_S1x2048 : S1x2048.Idx → EReal) := by
    dsimp only [Gen.V, Gen.hostOps0]; after_results; rfl
  rw [e]
  funext i
  exact one_row_read _ i

/-- Gate o's bias as one row. -/
theorem V_bo (c : Dev nD) : (V m c main_v17 : S1x2048.Idx → EReal)
    = fun i => (m ((c : Thread nD τ).loc main_arg10) : S2048.Idx → EReal) (ix1 (i 1)) := by
  have e : (V m c main_v17 : S1x2048.Idx → EReal)
      = (shapeCast S1x2048 (m ((c : Thread nD τ).loc main_arg10) : S2048.Idx → EReal) shapeCasts_S2048_S1x2048 : S1x2048.Idx → EReal) := by
    dsimp only [Gen.V, Gen.hostOps0]; after_results; rfl
  rw [e]
  funext i
  exact one_row_read _ i

end Cert.KernelIdeal.Staged

end
-- ==== Proof.KernelBlocks.lean ====
/-
  From the blocks to the whole arrays.  The grid has 16 × 16 points; point `t` handles batch rows
  `512·(t / 16) … 512·(t / 16) + 511` and hidden units `128·(t % 16) … 128·(t % 16) + 127`.  At that point the kernel
  stages the 512 batch rows of the input and of the previous hidden state whole (all 2048 columns), the 128 rows of each of
  the eight weight halves, the 128 bias entries of each gate, and the [512,128] tile of the previous cell state, and writes
  back the same tile of both results.  Read through these blocks, what the body stores is the LSTM cell's new cell state and
  new hidden state at the tile's indices; the 256 tiles cover the [8192,2048] arrays, so the arrays end holding them.
-/
import proofs.«170830_j49160195670661_1_alg».proof.Proof.Gen.KernelIdeal.Value
import proofs.«170830_j49160195670661_1_alg».proof.Proof.KernelGate
import proofs.«170830_j49160195670661_1_alg».proof.Proof.KernelHost
import proofs.«170830_j49160195670661_1_alg».proof.Proof.Spec
import Idealize.ShloMosaic.Lib.Pipeline.Value

noncomputable section

namespace Cert.KernelIdeal.Whole

open Cert.KernelIdeal Cert.KernelIdeal.Gen Cert.KernelIdeal.Value Cert.KernelIdeal.Block Cert.KernelIdeal.Staged
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the 256 grid points: the batch tile is `t / 16`, the hidden tile `t % 16`. -/
theorem idx_facts : ∀ t : Fin cfg0.N,
    (win0_0.index t (0 : Fin 2) = t.val / 16 ∧ win0_0.index t (1 : Fin 2) = 0)
    ∧ (win0_1.index t (0 : Fin 2) = t.val / 16 ∧ win0_1.index t (1 : Fin 2) = 0)
    ∧ (win0_2.index t (0 : Fin 2) = t.val / 16 ∧ win0_2.index t (1 : Fin 2) = t.val % 16)
    ∧ (win0_3.index t (0 : Fin 2) = t.val % 16 ∧ win0_3.index t (1 : Fin 2) = 0)
    ∧ (win0_4.index t (0 : Fin 2) = t.val % 16 ∧ win0_4.index t (1 : Fin 2) = 0)
    ∧ (win0_5.index t (0 : Fin 2) = t.val % 16 ∧ win0_5.index t (1 : Fin 2) = 0)
    ∧ (win0_6.index t (0 : Fin 2) = t.val % 16 ∧ win0_6.index t (1 : Fin 2) = 0)
    ∧ (win0_7.index t (0 : Fin 2) = t.val % 16 ∧ win0_7.index t (1 : Fin 2) = 0)
    ∧ (win0_8.index t (0 : Fin 2) = t.val % 16 ∧ win0_8.index t (1 : Fin 2) = 0)
    ∧ (win0_9.index t (0 : Fin 2) = t.val % 16 ∧ win0_9.index t (1 : Fin 2) = 0)
    ∧ (win0_10.index t (0 : Fin 2) = t.val % 16 ∧ win0_10.index t (1 : Fin 2) = 0)
    ∧ (win0_11.index t (0 : Fin 2) = 0 ∧ win0_11.index t (1 : Fin 2) = t.val % 16)
    ∧ (win0_12.index t (0 : Fin 2) = 0 ∧ win0_12.index t (1 : Fin 2) = t.val % 16)
    ∧ (win0_13.index t (0 : Fin 2) = 0 ∧ win0_13.index t (1 : Fin 2) = t.val % 16)
    ∧ (win0_14.index t (0 : Fin 2) = 0 ∧ win0_14.index t (1 : Fin 2) = t.val % 16)
    ∧ (win0_15.index t (0 : Fin 2) = t.val / 16 ∧ win0_15.index t (1 : Fin 2) = t.val % 16)
    ∧ (win0_16.index t (0 : Fin 2) = t.val / 16 ∧ win0_16.index t (1 : Fin 2) = t.val % 16) :=
  (by decide +kernel : ∀ t : Fin grid0.N, _)

/-- Batch row `r` of point `t`'s tile, in the whole array. -/
def rowOf (t : Fin cfg0.N) (r : Fin 512) : Fin 8192 :=
  ⟨512 * (t.val / 16) + r.val, by have h : t.val < 256 := lt_of_lt_of_eq t.isLt (show cfg0.N = 256 from N_0); have := r.isLt; omega⟩

/-- Hidden unit `s` of point `t`'s tile, among all 2048. -/
def colOf (t : Fin cfg0.N) (s : Fin 128) : Fin 2048 :=
  ⟨128 * (t.val % 16) + s.val, by have := s.isLt; omega⟩

/-- One gate inside a block is the gate of the whole arrays, once each block entry is the array entry it was staged from. -/
theorem blockGate_eq (xb hb : S512x2048.Idx → EReal) (wi wh : S128x2048.Idx → EReal) (bb : S1x128.Idx → EReal)
    (x h : Cert.Lstm.Batch.Idx → EReal) (W : Cert.Lstm.Weight.Idx → EReal) (b : Cert.Lstm.Bias.Idx → EReal)
    (r : Fin 512) (s : Fin 128) (p : Fin 8192) (q : Fin 2048)
    (hx : ∀ k : Fin 2048, xb (ix2 r k) = x (ix2 p k)) (hh : ∀ k : Fin 2048, hb (ix2 r k) = h (ix2 p k))
    (hwi : ∀ k : Fin 2048, wi (ix2 s k) = W (ix2 q (Cert.Lstm.inCol k)))
    (hwh : ∀ k : Fin 2048, wh (ix2 s k) = W (ix2 q (Cert.Lstm.hidCol k)))
    (hb' : bb (ix2 (0 : Fin 1) s) = b (ix1 q)) :
    blockGate xb hb wi wh bb r s = Cert.Lstm.gate x h W b p q := by
  unfold blockGate Cert.Lstm.gate
  rw [hb']
  congr 2
  · exact Finset.sum_congr rfl fun k _ => by rw [hx k, hwi k]
  · exact Finset.sum_congr rfl fun k _ => by rw [hh k, hwh k]

/-- The input's block at point `t`: the tile's batch rows, every column. -/
theorem xblk_apply (c : Dev nD) (t : Fin cfg0.N) (r : Fin 512) (k : Fin 2048) :
    (iblk m c 0 t : S512x2048.Idx → EReal) (ix2 r k) = (m ((c : Thread nD τ).loc main_arg0) : S8192x2048.Idx → EReal) (ix2 (rowOf t r) k) := by
  obtain ⟨⟨e0, e1⟩, -⟩ := idx_facts t
  rw [← V_x m c]
  unfold iblk
  rw [View.read_apply]
  show V m c main_v0 _ = V m c main_v0 _
  congr 1
  funext a
  apply Fin.ext
  match a with
  | ⟨0, _⟩ => show win0_0.index t (0 : Fin 2) * 512 + 1 * r.val = 512 * (t.val / 16) + r.val; rw [e0]; omega
  | ⟨1, _⟩ => show win0_0.index t (1 : Fin 2) * 2048 + 1 * k.val = k.val; rw [e1]; omega

/-- The previous hidden state's block at point `t`: the tile's batch rows, every column. -/
theorem hblk_apply (c : Dev nD) (t : Fin cfg0.N) (r : Fin 512) (k : Fin 2048) :
    (iblk m c 1 t : S512x2048.Idx → EReal) (ix2 r k) = (m ((c : Thread nD τ).loc main_arg1) : S8192x2048.Idx → EReal) (ix2 (rowOf t r) k) := by
  obtain ⟨-, ⟨e0, e1⟩, -⟩ := idx_facts t
  rw [← V_h m c]
  unfold iblk
  rw [View.read_apply]
  show V m c main_v1 _ = V m c main_v1 _
  congr 1
  funext a
  apply Fin.ext
  match a with
  | ⟨0, _⟩ => show win0_1.index t (0 : Fin 2) * 512 + 1 * r.val = 512 * (t.val / 16) + r.val; rw [e0]; omega
  | ⟨1, _⟩ => show win0_1.index t (1 : Fin 2) * 2048 + 1 * k.val = k.val; rw [e1]; omega

/-- The previous cell state's block at point `t`: the tile itself. -/
theorem cblk_apply (c : Dev nD) (t : Fin cfg0.N) (r : Fin 512) (s : Fin 128) :
    (iblk m c 2 t : S512x128.Idx → EReal) (ix2 r s) = (m ((c : Thread nD τ).loc main_arg2) : S8192x2048.Idx → EReal) (ix2 (rowOf t r) (colOf t s)) := by
  obtain ⟨-, -, ⟨e0, e1⟩, -⟩ := idx_facts t
  rw [← V_main_arg2 m c]
  unfold iblk
  rw [View.read_apply]
  show V m c main_arg2 _ = V m c main_arg2 _
  congr 1
  funext a
  apply Fin.ext
  match a with
  | ⟨0, _⟩ => show win0_2.index t (0 : Fin 2) * 512 + 1 * r.val = 512 * (t.val / 16) + r.val; rw [e0]; omega
  | ⟨1, _⟩ => show win0_2.index t (1 : Fin 2) * 128 + 1 * s.val = 128 * (t.val % 16) + s.val; rw [e1]; omega

/-- Gate f's input-half weight block at point `t`: the tile's hidden units' rows, the half's 2048 columns. -/
theorem wf_in_blk_apply (c : Dev nD) (t : Fin cfg0.N) (s : Fin 128) (k : Fin 2048) :
    (iblk m c 3 t : S128x2048.Idx → EReal) (ix2 s k)
      = (m ((c : Thread nD τ).loc main_arg3) : S2048x4096.Idx → EReal) (ix2 (colOf t s) (Cert.Lstm.inCol k)) := by
  obtain ⟨-, -, -, ⟨e0, e1⟩, -⟩ := idx_facts t
  refine Eq.trans ?_ (congrFun (V_wf_in m c) (ix2 (colOf t s) k))
  unfold iblk
  rw [View.read_apply]
  show V m c main_v3 _ = V m c main_v3 _
  congr 1
  funext a
  apply Fin.ext
  match a with
  | ⟨0, _⟩ => show win0_3.index t (0 : Fin 2) * 128 + 1 * s.val = 128 * (t.val % 16) + s.val; rw [e0]; omega
  | ⟨1, _⟩ => show win0_3.index t (1 : Fin 2) * 2048 + 1 * k.val = k.val; rw [e1]; omega

/-- Gate f's hidden-half weight block at point `t`: the tile's hidden units' rows, the half's 2048 columns. -/
theorem wf_hid_blk_apply (c : Dev nD) (t : Fin cfg0.N) (s : Fin 128) (k : Fin 2048) :
    (iblk m c 4 t : S128x2048.Idx → EReal) (ix2 s k)
      = (m ((c : Thread nD τ).loc main_arg3) : S2048x4096.Idx → EReal) (ix2 (colOf t s) (Cert.Lstm.hidCol k)) := by
  obtain ⟨-, -, -, -, ⟨e0, e1⟩, -⟩ := idx_facts t
  refine Eq.trans ?_ (congrFun (V_wf_hid m c) (ix2 (colOf t s) k))
  unfold iblk
  rw [View.read_apply]
  show V m c main_v4 _ = V m c main_v4 _
  congr 1
  funext a
  apply Fin.ext
  match a with
  | ⟨0, _⟩ => show win0_4.index t (0 : Fin 2) * 128 + 1 * s.val = 128 * (t.val % 16) + s.val; rw [e0]; omega
  | ⟨1, _⟩ => show win0_4.index t (1 : Fin 2) * 2048 + 1 * k.val = k.val; rw [e1]; omega

/-- Gate i's input-half weight block at point `t`: the tile's hidden units' rows, the half's 2048 columns. -/
theorem wi_in_blk_apply (c : Dev nD) (t : Fin cfg0.N) (s : Fin 128) (k : Fin 2048) :
    (iblk m c 5 t : S128x2048.Idx → EReal) (ix2 s k)
      = (m ((c : Thread nD τ).loc main_arg5) : S2048x4096.Idx → EReal) (ix2 (colOf t s) (Cert.Lstm.inCol k)) := by
  obtain ⟨-, -, -, -, -, ⟨e0, e1⟩, -⟩ := idx_facts t
  refine Eq.trans ?_ (congrFun (V_wi_in m c) (ix2 (colOf t s) k))
  unfold iblk
  rw [View.read_apply]
  show V m c main_v6 _ = V m c main_v6 _
  congr 1
  funext a
  apply Fin.ext
  match a with
  | ⟨0, _⟩ => show win0_5.index t (0 : Fin 2) * 128 + 1 * s.val = 128 * (t.val % 16) + s.val; rw [e0]; omega
  | ⟨1, _⟩ => show win0_5.index t (1 : Fin 2) * 2048 + 1 * k.val = k.val; rw [e1]; omega

/-- Gate i's hidden-half weight block at point `t`: the tile's hidden units' rows, the half's 2048 columns. -/
theorem wi_hid_blk_apply (c : Dev nD) (t : Fin cfg0.N) (s : Fin 128) (k : Fin 2048) :
    (iblk m c 6 t : S128x2048.Idx → EReal) (ix2 s k)
      = (m ((c : Thread nD τ).loc main_arg5) : S2048x4096.Idx → EReal) (ix2 (colOf t s) (Cert.Lstm.hidCol k)) := by
  obtain ⟨-, -, -, -, -, -, ⟨e0, e1⟩, -⟩ := idx_facts t
  refine Eq.trans ?_ (congrFun (V_wi_hid m c) (ix2 (colOf t s) k))
  unfold iblk
  rw [View.read_apply]
  show V m c main_v7 _ = V m c main_v7 _
  congr 1
  funext a
  apply Fin.ext
  match a with
  | ⟨0, _⟩ => show win0_6.index t (0 : Fin 2) * 128 + 1 * s.val = 128 * (t.val % 16) + s.val; rw [e0]; omega
  | ⟨1, _⟩ => show win0_6.index t (1 : Fin 2) * 2048 + 1 * k.val = k.val; rw [e1]; omega

/-- Gate g's input-half weight block at point `t`: the tile's hidden units' rows, the half's 2048 columns. -/
theorem wg_in_blk_apply (c : Dev nD) (t : Fin cfg0.N) (s : Fin 128) (k : Fin 2048) :
    (iblk m c 7 t : S128x2048.Idx → EReal) (ix2 s k)
      = (m ((c : Thread nD τ).loc main_arg7) : S2048x4096.Idx → EReal) (ix2 (colOf t s) (Cert.Lstm.inCol k)) := by
  obtain ⟨-, -, -, -, -, -, -, ⟨e0, e1⟩, -⟩ := idx_facts t
  refine Eq.trans ?_ (congrFun (V_wg_in m c) (ix2 (colOf t s) k))
  unfold iblk
  rw [View.read_apply]
  show V m c main_v9 _ = V m c main_v9 _
  congr 1
  funext a
  apply Fin.ext
  match a with
  | ⟨0, _⟩ => show win0_7.index t (0 : Fin 2) * 128 + 1 * s.val = 128 * (t.val % 16) + s.val; rw [e0]; omega
  | ⟨1, _⟩ => show win0_7.index t (1 : Fin 2) * 2048 + 1 * k.val = k.val; rw [e1]; omega

/-- Gate g's hidden-half weight block at point `t`: the tile's hidden units' rows, the half's 2048 columns. -/
theorem wg_hid_blk_apply (c : Dev nD) (t : Fin cfg0.N) (s : Fin 128) (k : Fin 2048) :
    (iblk m c 8 t : S128x2048.Idx → EReal) (ix2 s k)
      = (m ((c : Thread nD τ).loc main_arg7) : S2048x4096.Idx → EReal) (ix2 (colOf t s) (Cert.Lstm.hidCol k)) := by
  obtain ⟨-, -, -, -, -, -, -, -, ⟨e0, e1⟩, -⟩ := idx_facts t
  refine Eq.trans ?_ (congrFun (V_wg_hid m c) (ix2 (colOf t s) k))
  unfold iblk
  rw [View.read_apply]
  show V m c main_v10 _ = V m c main_v10 _
  congr 1
  funext a
  apply Fin.ext
  match a with
  | ⟨0, _⟩ => show win0_8.index t (0 : Fin 2) * 128 + 1 * s.val = 128 * (t.val % 16) + s.val; rw [e0]; omega
  | ⟨1, _⟩ => show win0_8.index t (1 : Fin 2) * 2048 + 1 * k.val = k.val; rw [e1]; omega

/-- Gate o's input-half weight block at point `t`: the tile's hidden units' rows, the half's 2048 columns. -/
theorem wo_in_blk_apply (c : Dev nD) (t : Fin cfg0.N) (s : Fin 128) (k : Fin 2048) :
    (iblk m c 9 t : S128x2048.Idx → EReal) (ix2 s k)
      = (m ((c : Thread nD τ).loc main_arg9) : S2048x4096.Idx → EReal) (ix2 (colOf t s) (Cert.Lstm.inCol k)) := by
  obtain ⟨-, -, -, -, -, -, -, -, -, ⟨e0, e1⟩, -⟩ := idx_facts t
  refine Eq.trans ?_ (congrFun (V_wo_in m c) (ix2 (colOf t s) k))
  unfold iblk
  rw [View.read_apply]
  show V m c main_v12 _ = V m c main_v12 _
  congr 1
  funext a
  apply Fin.ext
  match a with
  | ⟨0, _⟩ => show win0_9.index t (0 : Fin 2) * 128 + 1 * s.val = 128 * (t.val % 16) + s.val; rw [e0]; omega
  | ⟨1, _⟩ => show win0_9.index t (1 : Fin 2) * 2048 + 1 * k.val = k.val; rw [e1]; omega

/-- Gate o's hidden-half weight block at point `t`: the tile's hidden units' rows, the half's 2048 columns. -/
theorem wo_hid_blk_apply (c : Dev nD) (t : Fin cfg0.N) (s : Fin 128) (k : Fin 2048) :
    (iblk m c 10 t : S128x2048.Idx → EReal) (ix2 s k)
      = (m ((c : Thread nD τ).loc main_arg9) : S2048x4096.Idx → EReal) (ix2 (colOf t s) (Cert.Lstm.hidCol k)) := by
  obtain ⟨-, -, -, -, -, -, -, -, -, -, ⟨e0, e1⟩, -⟩ := idx_facts t
  refine Eq.trans ?_ (congrFun (V_wo_hid m c) (ix2 (colOf t s) k))
  unfold iblk
  rw [View.read_apply]
  show V m c main_v13 _ = V m c main_v13 _
  congr 1
  funext a
  apply Fin.ext
  match a with
  | ⟨0, _⟩ => show win0_10.index t (0 : Fin 2) * 128 + 1 * s.val = 128 * (t.val % 16) + s.val; rw [e0]; omega
  | ⟨1, _⟩ => show win0_10.index t (1 : Fin 2) * 2048 + 1 * k.val = k.val; rw [e1]; omega

/-- Gate f's bias block at point `t`: the tile's hidden units' entries. -/
theorem bf_blk_apply (c : Dev nD) (t : Fin cfg0.N) (s : Fin 128) :
    (iblk m c 11 t : S1x128.Idx → EReal) (ix2 (0 : Fin 1) s) = (m ((c : Thread nD τ).loc main_arg4) : S2048.Idx → EReal) (ix1 (colOf t s)) := by
  obtain ⟨-, -, -, -, -, -, -, -, -, -, -, ⟨e0, e1⟩, -⟩ := idx_facts t
  refine Eq.trans ?_ (congrFun (V_bf m c) (ix2 (0 : Fin 1) (colOf t s)))
  unfold iblk
  rw [View.read_apply]
  show V m c main_v14 _ = V m c main_v14 _
  congr 1
  funext a
  apply Fin.ext
  match a with
  | ⟨0, _⟩ => show win0_11.index t (0 : Fin 2) * 1 + 1 * 0 = 0; rw [e0]
  | ⟨1, _⟩ => show win0_11.index t (1 : Fin 2) * 128 + 1 * s.val = 128 * (t.val % 16) + s.val; rw [e1]; omega

/-- Gate i's bias block at point `t`: the tile's hidden units' entries. -/
theorem bi_blk_apply (c : Dev nD) (t : Fin cfg0.N) (s : Fin 128) :
    (iblk m c 12 t : S1x128.Idx → EReal) (ix2 (0 : Fin 1) s) = (m ((c : Thread nD τ).loc main_arg6) : S2048.Idx → EReal) (ix1 (colOf t s)) := by
  obtain ⟨-, -, -, -, -, -, -, -, -, -, -, -, ⟨e0, e1⟩, -⟩ := idx_facts t
  refine Eq.trans ?_ (congrFun (V_bi m c) (ix2 (0 : Fin 1) (colOf t s)))
  unfold iblk
  rw [View.read_apply]
  show V m c main_v15 _ = V m c main_v15 _
  congr 1
  funext a
  apply Fin.ext
  match a with
  | ⟨0, _⟩ => show win0_12.index t (0 : Fin 2) * 1 + 1 * 0 = 0; rw [e0]
  | ⟨1, _⟩ => show win0_12.index t (1 : Fin 2) * 128 + 1 * s.val = 128 * (t.val % 16) + s.val; rw [e1]; omega

/-- Gate g's bias block at point `t`: the tile's hidden units' entries. -/
theorem bg_blk_apply (c : Dev nD) (t : Fin cfg0.N) (s : Fin 128) :
    (iblk m c 13 t : S1x128.Idx → EReal) (ix2 (0 : Fin 1) s) = (m ((c : Thread nD τ).loc main_arg8) : S2048.Idx → EReal) (ix1 (colOf t s)) := by
  obtain ⟨-, -, -, -, -, -, -, -, -, -, -, -, -, ⟨e0, e1⟩, -⟩ := idx_facts t
  refine Eq.trans ?_ (congrFun (V_bg m c) (ix2 (0 : Fin 1) (colOf t s)))
  unfold iblk
  rw [View.read_apply]
  show V m c main_v16 _ = V m c main_v16 _
  congr 1
  funext a
  apply Fin.ext
  match a with
  | ⟨0, _⟩ => show win0_13.index t (0 : Fin 2) * 1 + 1 * 0 = 0; rw [e0]
  | ⟨1, _⟩ => show win0_13.index t (1 : Fin 2) * 128 + 1 * s.val = 128 * (t.val % 16) + s.val; rw [e1]; omega

/-- Gate o's bias block at point `t`: the tile's hidden units' entries. -/
theorem bo_blk_apply (c : Dev nD) (t : Fin cfg0.N) (s : Fin 128) :
    (iblk m c 14 t : S1x128.Idx → EReal) (ix2 (0 : Fin 1) s) = (m ((c : Thread nD τ).loc main_arg10) : S2048.Idx → EReal) (ix1 (colOf t s)) := by
  obtain ⟨-, -, -, -, -, -, -, -, -, -, -, -, -, -, ⟨e0, e1⟩, -⟩ := idx_facts t
  refine Eq.trans ?_ (congrFun (V_bo m c) (ix2 (0 : Fin 1) (colOf t s)))
  unfold iblk
  rw [View.read_apply]
  show V m c main_v17 _ = V m c main_v17 _
  congr 1
  funext a
  apply Fin.ext
  match a with
  | ⟨0, _⟩ => show win0_14.index t (0 : Fin 2) * 1 + 1 * 0 = 0; rw [e0]
  | ⟨1, _⟩ => show win0_14.index t (1 : Fin 2) * 128 + 1 * s.val = 128 * (t.val % 16) + s.val; rw [e1]; omega

/-- Gate f at point `t`'s tile, read through the blocks, is gate f of the whole arrays at the tile's indices. -/
theorem gate_f_eq (c : Dev nD) (t : Fin cfg0.N) (r : Fin 512) (s : Fin 128) :
    blockGate (iblk m c 0 t) (iblk m c 1 t) (iblk m c 3 t) (iblk m c 4 t) (iblk m c 11 t) r s
      = Cert.Lstm.gate (m ((c : Thread nD τ).loc main_arg0)) (m ((c : Thread nD τ).loc main_arg1)) (m ((c : Thread nD τ).loc main_arg3)) (m ((c : Thread nD τ).loc main_arg4)) (rowOf t r) (colOf t s) :=
  blockGate_eq (iblk m c 0 t) (iblk m c 1 t) (iblk m c 3 t) (iblk m c 4 t) (iblk m c 11 t)
    (m ((c : Thread nD τ).loc main_arg0)) (m ((c : Thread nD τ).loc main_arg1)) (m ((c : Thread nD τ).loc main_arg3)) (m ((c : Thread nD τ).loc main_arg4)) r s (rowOf t r) (colOf t s)
    (fun k => xblk_apply m c t r k) (fun k => hblk_apply m c t r k)
    (fun k => wf_in_blk_apply m c t s k) (fun k => wf_hid_blk_apply m c t s k) (bf_blk_apply m c t s)

/-- Gate i at point `t`'s tile, read through the blocks, is gate i of the whole arrays at the tile's indices. -/
theorem gate_i_eq (c : Dev nD) (t : Fin cfg0.N) (r : Fin 512) (s : Fin 128) :
    blockGate (iblk m c 0 t) (iblk m c 1 t) (iblk m c 5 t) (iblk m c 6 t) (iblk m c 12 t) r s
      = Cert.Lstm.gate (m ((c : Thread nD τ).loc main_arg0)) (m ((c : Thread nD τ).loc main_arg1)) (m ((c : Thread nD τ).loc main_arg5)) (m ((c : Thread nD τ).loc main_arg6)) (rowOf t r) (colOf t s) :=
  blockGate_eq (iblk m c 0 t) (iblk m c 1 t) (iblk m c 5 t) (iblk m c 6 t) (iblk m c 12 t)
    (m ((c : Thread nD τ).loc main_arg0)) (m ((c : Thread nD τ).loc main_arg1)) (m ((c : Thread nD τ).loc main_arg5)) (m ((c : Thread nD τ).loc main_arg6)) r s (rowOf t r) (colOf t s)
    (fun k => xblk_apply m c t r k) (fun k => hblk_apply m c t r k)
    (fun k => wi_in_blk_apply m c t s k) (fun k => wi_hid_blk_apply m c t s k) (bi_blk_apply m c t s)

/-- Gate g at point `t`'s tile, read through the blocks, is gate g of the whole arrays at the tile's indices. -/
theorem gate_g_eq (c : Dev nD) (t : Fin cfg0.N) (r : Fin 512) (s : Fin 128) :
    blockGate (iblk m c 0 t) (iblk m c 1 t) (iblk m c 7 t) (iblk m c 8 t) (iblk m c 13 t) r s
      = Cert.Lstm.gate (m ((c : Thread nD τ).loc main_arg0)) (m ((c : Thread nD τ).loc main_arg1)) (m ((c : Thread nD τ).loc main_arg7)) (m ((c : Thread nD τ).loc main_arg8)) (rowOf t r) (colOf t s) :=
  blockGate_eq (iblk m c 0 t) (iblk m c 1 t) (iblk m c 7 t) (iblk m c 8 t) (iblk m c 13 t)
    (m ((c : Thread nD τ).loc main_arg0)) (m ((c : Thread nD τ).loc main_arg1)) (m ((c : Thread nD τ).loc main_arg7)) (m ((c : Thread nD τ).loc main_arg8)) r s (rowOf t r) (colOf t s)
    (fun k => xblk_apply m c t r k) (fun k => hblk_apply m c t r k)
    (fun k => wg_in_blk_apply m c t s k) (fun k => wg_hid_blk_apply m c t s k) (bg_blk_apply m c t s)

/-- Gate o at point `t`'s tile, read through the blocks, is gate o of the whole arrays at the tile's indices. -/
theorem gate_o_eq (c : Dev nD) (t : Fin cfg0.N) (r : Fin 512) (s : Fin 128) :
    blockGate (iblk m c 0 t) (iblk m c 1 t) (iblk m c 9 t) (iblk m c 10 t) (iblk m c 14 t) r s
      = Cert.Lstm.gate (m ((c : Thread nD τ).loc main_arg0)) (m ((c : Thread nD τ).loc main_arg1)) (m ((c : Thread nD τ).loc main_arg9)) (m ((c : Thread nD τ).loc main_arg10)) (rowOf t r) (colOf t s) :=
  blockGate_eq (iblk m c 0 t) (iblk m c 1 t) (iblk m c 9 t) (iblk m c 10 t) (iblk m c 14 t)
    (m ((c : Thread nD τ).loc main_arg0)) (m ((c : Thread nD τ).loc main_arg1)) (m ((c : Thread nD τ).loc main_arg9)) (m ((c : Thread nD τ).loc main_arg10)) r s (rowOf t r) (colOf t s)
    (fun k => xblk_apply m c t r k) (fun k => hblk_apply m c t r k)
    (fun k => wo_in_blk_apply m c t s k) (fun k => wo_hid_blk_apply m c t s k) (bo_blk_apply m c t s)

/-- The new cell state of the whole arrays. -/
abbrev cellArr (c : Dev nD) : S8192x2048.Idx → EReal := Cert.Lstm.cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The new hidden state of the whole arrays. -/
abbrev hidArr (c : Dev nD) : S8192x2048.Idx → EReal := Cert.Lstm.hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The new cell state inside point `t`'s tile is the whole arrays' at the tile's indices. -/
theorem blockCell_eq (c : Dev nD) (t : Fin cfg0.N) (r : Fin 512) (s : Fin 128) :
    blockCell (iblk m c 0 t) (iblk m c 1 t) (iblk m c 2 t) (iblk m c 3 t) (iblk m c 4 t) (iblk m c 5 t) (iblk m c 6 t)
        (iblk m c 7 t) (iblk m c 8 t) (iblk m c 11 t) (iblk m c 12 t) (iblk m c 13 t) r s
      = cellArr m c (ix2 (rowOf t r) (colOf t s)) := by
  unfold blockCell
  rw [gate_f_eq m c t r s, gate_i_eq m c t r s, gate_g_eq m c t r s, cblk_apply m c t r s]
  rfl

/-- Where an element of point `t`'s output tile sits in the whole array (both results share the index map). -/
theorem emb15 (t : Fin cfg0.N) (r : Fin 512) (s : Fin 128) :
    ((cfg0.win 15).blk t).view.emb (ix2 r s) = (ix2 (rowOf t r) (colOf t s) : S8192x2048.Idx) := by
  obtain ⟨-, -, -, -, -, -, -, -, -, -, -, -, -, -, -, ⟨e0, e1⟩, -⟩ := idx_facts t
  funext a
  apply Fin.ext
  match a with
  | ⟨0, _⟩ => show win0_15.index t (0 : Fin 2) * 512 + 1 * r.val = 512 * (t.val / 16) + r.val; rw [e0]; omega
  | ⟨1, _⟩ => show win0_15.index t (1 : Fin 2) * 128 + 1 * s.val = 128 * (t.val % 16) + s.val; rw [e1]; omega

theorem emb16 (t : Fin cfg0.N) (r : Fin 512) (s : Fin 128) :
    ((cfg0.win 16).blk t).view.emb (ix2 r s) = (ix2 (rowOf t r) (colOf t s) : S8192x2048.Idx) := by
  obtain ⟨-, -, -, -, -, -, -, -, -, -, -, -, -, -, -, -, e0, e1⟩ := idx_facts t
  funext a
  apply Fin.ext
  match a with
  | ⟨0, _⟩ => show win0_16.index t (0 : Fin 2) * 512 + 1 * r.val = 512 * (t.val / 16) + r.val; rw [e0]; omega
  | ⟨1, _⟩ => show win0_16.index t (1 : Fin 2) * 128 + 1 * s.val = 128 * (t.val % 16) + s.val; rw [e1]; omega

/-- What point `t` writes back to the cell-state result is tile `t` of the whole arrays' new cell state. -/
theorem flushed16_eq (c : Dev nD) (t : Fin cfg0.N) :
    (dats m 0 c).flushed 16 t = ((cfg0.win 16).blk t).view.read (Elt Ideal) (cellArr m c) := by
  rw [flushed16 m c t]
  funext j
  obtain ⟨r, s, rfl⟩ : ∃ (r : Fin 512) (s : Fin 128), j = ix2 r s := ⟨j 0, j 1, eq_ix2 j⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r s) = cellArr m c (((cfg0.win 16).blk t).view.emb (ix2 r s))
  rw [emb16 t r s]
  exact (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r s).trans (blockCell_eq m c t r s)

/-- What point `t` writes back to the hidden-state result is tile `t` of the whole arrays' new hidden state. -/
theorem flushed15_eq (c : Dev nD) (t : Fin cfg0.N) :
    (dats m 0 c).flushed 15 t = ((cfg0.win 15).blk t).view.read (Elt Ideal) (hidArr m c) := by
  rw [flushed15 m c t]
  funext j
  obtain ⟨r, s, rfl⟩ : ∃ (r : Fin 512) (s : Fin 128), j = ix2 r s := ⟨j 0, j 1, eq_ix2 j⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r s) = hidArr m c (((cfg0.win 15).blk t).view.emb (ix2 r s))
  rw [emb15 t r s]
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r s).trans ?_
  rw [gate_o_eq m c t r s, blockCell_eq m c t r s]
  rfl

/-- An index of a result array is in point `t`'s tile iff each coordinate is in the tile's range on its axis. -/
theorem mem_blk15 (t : Fin cfg0.N) (i : S8192x2048.Idx) :
    i ∈ ((cfg0.win 15).blk t).view.set ↔ ∀ a : Fin 2, win0_15.index t a * S512x128.size a ≤ (i a).val ∧ (i a).val < win0_15.index t a * S512x128.size a + S512x128.size a := by
  show i ∈ ((View.whole main_v18_0).slice (win0_15.rect t)).set ↔ _
  rw [View.set_slice_whole, Rect.mem_set_unit]
  exact Iff.rfl

theorem mem_blk16 (t : Fin cfg0.N) (i : S8192x2048.Idx) :
    i ∈ ((cfg0.win 16).blk t).view.set ↔ ∀ a : Fin 2, win0_16.index t a * S512x128.size a ≤ (i a).val ∧ (i a).val < win0_16.index t a * S512x128.size a + S512x128.size a := by
  show i ∈ ((View.whole main_v18_1).slice (win0_16.rect t)).set ↔ _
  rw [View.set_slice_whole, Rect.mem_set_unit]
  exact Iff.rfl

/-- The grid point whose tile holds index `i`: batch tile `i₀ / 512`, hidden tile `i₁ / 128`. -/
def pointOf (i : S8192x2048.Idx) : Fin cfg0.N :=
  ⟨16 * ((i 0).val / 512) + (i 1).val / 128, by
    have h0 : (i 0).val < 8192 := (i 0).isLt
    have h1 : (i 1).val < 2048 := (i 1).isLt
    show 16 * ((i 0).val / 512) + (i 1).val / 128 < grid0.N
    rw [N_0]; omega⟩

/-- The 256 tiles cover the hidden-state result. -/
theorem cover15 (i : S8192x2048.Idx) :
    ∃ t : Fin cfg0.N, (cfg0.win 15).flush t = true ∧ i ∈ ((cfg0.win 15).blk t).view.set := by
  have h0 : (i 0).val < 8192 := (i 0).isLt
  have h1 : (i 1).val < 2048 := (i 1).isLt
  refine ⟨pointOf i, flush0_15 _, ?_⟩
  obtain ⟨-, -, -, -, -, -, -, -, -, -, -, -, -, -, -, ⟨e0, e1⟩, -⟩ := idx_facts (pointOf i)
  have hv : (pointOf i).val = 16 * ((i 0).val / 512) + (i 1).val / 128 := rfl
  rw [mem_blk15]
  intro a
  match a with
  | ⟨0, _⟩ => show win0_15.index (pointOf i) (0 : Fin 2) * 512 ≤ (i 0).val ∧ (i 0).val < win0_15.index (pointOf i) (0 : Fin 2) * 512 + 512; rw [e0, hv]; omega
  | ⟨1, _⟩ => show win0_15.index (pointOf i) (1 : Fin 2) * 128 ≤ (i 1).val ∧ (i 1).val < win0_15.index (pointOf i) (1 : Fin 2) * 128 + 128; rw [e1, hv]; omega

/-- The 256 tiles cover the cell-state result. -/
theorem cover16 (i : S8192x2048.Idx) :
    ∃ t : Fin cfg0.N, (cfg0.win 16).flush t = true ∧ i ∈ ((cfg0.win 16).blk t).view.set := by
  have h0 : (i 0).val < 8192 := (i 0).isLt
  have h1 : (i 1).val < 2048 := (i 1).isLt
  refine ⟨pointOf i, flush0_16 _, ?_⟩
  obtain ⟨-, -, -, -, -, -, -, -, -, -, -, -, -, -, -, -, e0, e1⟩ := idx_facts (pointOf i)
  have hv : (pointOf i).val = 16 * ((i 0).val / 512) + (i 1).val / 128 := rfl
  rw [mem_blk16]
  intro a
  match a with
  | ⟨0, _⟩ => show win0_16.index (pointOf i) (0 : Fin 2) * 512 ≤ (i 0).val ∧ (i 0).val < win0_16.index (pointOf i) (0 : Fin 2) * 512 + 512; rw [e0, hv]; omega
  | ⟨1, _⟩ => show win0_16.index (pointOf i) (1 : Fin 2) * 128 ≤ (i 1).val ∧ (i 1).val < win0_16.index (pointOf i) (1 : Fin 2) * 128 + 128; rw [e1, hv]; omega

/-- After the run the hidden-state result holds the whole arrays' new hidden state. -/
theorem final15 (c : Dev nD) : (dats m 0 c).arrAt 15 cfg0.N = hidArr m c :=
  (dats m 0 c).arrAt_eq_of_cover 15 (hidArr m c) (fun t _ => flushed15_eq m c t) cover15

/-- After the run the cell-state result holds the whole arrays' new cell state. -/
theorem final16 (c : Dev nD) : (dats m 0 c).arrAt 16 cfg0.N = cellArr m c :=
  (dats m 0 c).arrAt_eq_of_cover 16 (cellArr m c) (fun t _ => flushed16_eq m c t) cover16

/-- The kernel's run, read: both results at the LSTM cell's functions of the arguments, the arguments unchanged. -/
theorem run : θ_run defs (onTc (τ := τ) (main (F := Ideal))) ⟨m, fun _ => 0, ρ⟩ fun r => ∀ c : Dev nD,
      r.2.mem ((c : Thread nD τ).loc main_v18_0) = hidArr m c
      ∧ r.2.mem ((c : Thread nD τ).loc main_v18_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final15 m c), (h c).2.1.trans (final16 m c), (h c).2.2⟩)
    (run_blocks m ρ)

end Cert.KernelIdeal.Whole

end
-- ==== Proof.lean ====
/-
  An LSTM cell with its four gates fused.  The kernel computes, tile by tile over a 16 × 16 grid, each gate's
  pre-activation as the input's product with the gate's first 2048 weight columns plus the previous hidden state's product
  with its last 2048 weight columns plus the bias; the reference joins `[input, hidden]` into one [8192, 4096] array, stacks
  the four weight matrices and biases, and takes ONE product over the 4096 joined columns.  On the extended reals the two
  are one function: a sum over 4096 terms is the sum of its two halves (only the commutative-monoid laws of `+`, so no
  entry need be finite), the narrowing of the matmul operands to a shorter float format changes no value, and the
  logistic function is the same expression `1 / (1 + e⁻ᵗ)` on both sides.  Both results (the new hidden state and the new
  cell state) are stated as the functions `Cert.Lstm.hidOut` and `Cert.Lstm.cellOut` of the eleven arguments.
-/
import proofs.«170830_j49160195670661_1_alg».proof.Defs
import proofs.«170830_j49160195670661_1_alg».proof.Proof.Gen.Kernel
import proofs.«170830_j49160195670661_1_alg».proof.Proof.Gen.Kernel.Skeleton
import proofs.«170830_j49160195670661_1_alg».proof.Proof.Gen.Kernel.Launch
import proofs.«170830_j49160195670661_1_alg».proof.Proof.Gen.Kernel.Points
import proofs.«170830_j49160195670661_1_alg».proof.Proof.Gen.Kernel.Frame
import proofs.«170830_j49160195670661_1_alg».proof.Proof.Gen.KernelIdeal
import proofs.«170830_j49160195670661_1_alg».proof.Proof.Gen.KernelIdeal.Skeleton
import proofs.«170830_j49160195670661_1_alg».proof.Proof.Gen.KernelIdeal.Launch
import proofs.«170830_j49160195670661_1_alg».proof.Proof.Gen.KernelIdeal.Points
import proofs.«170830_j49160195670661_1_alg».proof.Proof.Gen.KernelIdeal.Frame
import proofs.«170830_j49160195670661_1_alg».proof.Proof.Gen.ReferenceIdeal
import proofs.«170830_j49160195670661_1_alg».proof.Proof.Gen.Pre_finite_inputs
import proofs.«170830_j49160195670661_1_alg».proof.Proof.Gen.KernelIdeal.Value
import proofs.«170830_j49160195670661_1_alg».proof.Proof.Gen.ReferenceIdeal.Run
import proofs.«170830_j49160195670661_1_alg».proof.Proof.Gen.ReferenceIdeal.Read
import proofs.«170830_j49160195670661_1_alg».proof.Proof.Spec
import proofs.«170830_j49160195670661_1_alg».proof.Proof.RefBridge
import proofs.«170830_j49160195670661_1_alg».proof.Proof.KernelBlocks
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and writes none of its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the new hidden state and the new cell state of the LSTM cell of their (equal) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.hidArr m c, fun c => Cert.KernelIdeal.Whole.cellArr m c,
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.ReferenceIdeal.Bridge.hid_eq]
    obtain ⟨a0, a1, a2, a3, a4, a5, a6, a7, a8, a9, a10⟩ := hagree c
    rw [a0, a1, a2, a3, a4, a5, a6, a7, a8, a9, a10]
  · rw [(h c).2.1, Cert.ReferenceIdeal.Read.val_main_v33_eq, Cert.ReferenceIdeal.Bridge.cell_eq]
    obtain ⟨a0, a1, a2, a3, a4, a5, a6, a7, a8, a9, a10⟩ := hagree c
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
